-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x512 : Shape := ⟨2, ![1024, 512]⟩
abbrev S512 : Shape := ⟨1, ![512]⟩
abbrev S1024x64 : Shape := ⟨2, ![1024, 64]⟩
abbrev S576x1024 : Shape := ⟨2, ![576, 1024]⟩
abbrev S1024 : Shape := ⟨1, ![1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1024x64 : S_.BroadcastsInDim S1024x64 (![] : Fin 0 → Fin S1024x64.rank)
  reducesTo_S1024x64_S_d0_1 : S1024x64.ReducesTo [0, 1] S_
  bcast_S_S576x1024 : S_.BroadcastsInDim S576x1024 (![] : Fin 0 → Fin S576x1024.rank)
  reducesTo_S576x1024_S_d0_1 : S576x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S576x1024 .f32) (main_arg5 : FVec F S1024 .f32) (main_arg6 : FVec F S1024x512 .f32) (main_arg7 : FVec F S512 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S576x1024 .f32 := Host.absf main_arg4
  let main_cst_6 : FVec F S_ .f32 := constant S_ .f32 0x7F800000#32
  let main_v20 : FVec F S576x1024 .f32 := broadcastInDim S576x1024 ![] bcast_S_S576x1024 main_cst_6
  let main_v21 : IVec S576x1024 1 := cmpf .olt main_v19 main_v20
  let main_c_7 : IVec S_ 1 := constantI S_ 1 1#1
  let main_v22 : IVec S_ 1 := (fun x v => Host.reduce IntOp.andi x v reducesTo_S576x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_v33

def fn {F : FTy → Type} [FloatOps F] (main_arg0 : FVec F S32x512x1024 .f32) (main_arg1 : FVec F S1024x512 .f32) (main_arg2 : FVec F S512 .f32) (main_arg3 : FVec F S1024x64 .f32) (main_arg4 : FVec F S576x1024 .f32) (main_arg5 : FVec F S1024 .f32) (main_arg6 : FVec F S1024x512 .f32) (main_arg7 : FVec F S512 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_v13 main_v16
-- ==== Kernel.lean ====
abbrev S32x512x1024 : Shape := ⟨3, ![32, 512, 1024]⟩
abbrev S1024x512 : Shape := ⟨2, ![1024, 512]⟩
abbrev S512 : Shape := ⟨1, ![512]⟩
abbrev S1024x64 : Shape := ⟨2, ![1024, 64]⟩
abbrev S576x1024 : Shape := ⟨2, ![576, 1024]⟩
abbrev S1024 : Shape := ⟨1, ![1024]⟩
abbrev S16384x1024 : Shape := ⟨2, ![16384, 1024]⟩
abbrev S512x1024 : Shape := ⟨2, ![512, 1024]⟩
abbrev S64x1024 : Shape := ⟨2, ![64, 1024]⟩
abbrev S1x512 : Shape := ⟨2, ![1, 512]⟩
abbrev S1x1024 : Shape := ⟨2, ![1, 1024]⟩
abbrev S16384x512 : Shape := ⟨2, ![16384, 512]⟩
abbrev S512x512 : Shape := ⟨2, ![512, 512]⟩
abbrev S512x64 : Shape := ⟨2, ![512, 64]⟩
abbrev S32x512x512 : Shape := ⟨3, ![32, 512, 512]⟩

abbrev nBuf : Space → Nat
  | .hbm => 23
  | .vmem => 13
  | .smem => 0
  | _ => 0

abbrev bufTy : (tb : Table) → Fin (tcTables nBuf tb) → BufTy
  | .hbm, ⟨0, _⟩ => ⟨S32x512x1024, .f32⟩
  | .hbm, ⟨1, _⟩ => ⟨S1024x512, .f32⟩
  | .hbm, ⟨2, _⟩ => ⟨S512, .f32⟩
  | .hbm, ⟨3, _⟩ => ⟨S1024x64, .f32⟩
  | .hbm, ⟨4, _⟩ => ⟨S576x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S16384x1024, .f32⟩
  | .hbm, ⟨9, _⟩ => ⟨S1024x512, .bf16⟩
  | .hbm, ⟨10, _⟩ => ⟨S1024x64, .bf16⟩
  | .hbm, ⟨11, _⟩ => ⟨S1024x64, .f32⟩
  | .hbm, ⟨12, _⟩ => ⟨S1024x64, .bf16⟩
  | .hbm, ⟨13, _⟩ => ⟨S512x1024, .f32⟩
  | .hbm, ⟨14, _⟩ => ⟨S512x1024, .bf16⟩
  | .hbm, ⟨15, _⟩ => ⟨S64x1024, .f32⟩
  | .hbm, ⟨16, _⟩ => ⟨S64x1024, .bf16⟩
  | .hbm, ⟨17, _⟩ => ⟨S1024x512, .bf16⟩
  | .hbm, ⟨18, _⟩ => ⟨S1x512, .f32⟩
  | .hbm, ⟨19, _⟩ => ⟨S1x1024, .f32⟩
  | .hbm, ⟨20, _⟩ => ⟨S1x512, .f32⟩
  | .hbm, ⟨21, _⟩ => ⟨S16384x512, .f32⟩
  | .hbm, ⟨22, _⟩ => ⟨S32x512x512, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1x512, .f32⟩
  | .local _ .vmem, ⟨4, _⟩ => ⟨S1024x64, .bf16⟩
  | .local _ .vmem, ⟨5, _⟩ => ⟨S1024x64, .bf16⟩
  | .local _ .vmem, ⟨6, _⟩ => ⟨S512x1024, .bf16⟩
  | .local _ .vmem, ⟨7, _⟩ => ⟨S64x1024, .bf16⟩
  | .local _ .vmem, ⟨8, _⟩ => ⟨S1x1024, .f32⟩
  | .local _ .vmem, ⟨9, _⟩ => ⟨S1024x512, .bf16⟩
  | .local _ .vmem, ⟨10, _⟩ => ⟨S1x512, .f32⟩
  | .local _ .vmem, ⟨11, _⟩ => ⟨S512x512, .f32⟩
  | .local _ .vmem, ⟨12, _⟩ => ⟨S512x512, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S32x512x1024_S16384x1024 : S32x512x1024.ShapeCasts S16384x1024
  bitsLt_bf16_f32 : FTy.bits .bf16 < FTy.bits .f32
  slices_S576x1024_S512x1024_0_0 : S576x1024.Slices ![0, 0] S512x1024
  slices_S576x1024_S64x1024_512_0 : S576x1024.Slices ![512, 0] S64x1024
  shapeCasts_S512_S1x512 : S512.ShapeCasts S1x512
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x512_S512x512_0_0 : ∀ a, (![0, 0] : Fin 2 → Nat) a + S512x512.size a ≤ S512x512.size a
  h_S512x512 : 0 < S512x512.numel
  shapeCasts_S16384x512_S32x512x512 : S16384x512.ShapeCasts S32x512x512
  dot_S512x1024_S1024x512_S512x512_1_0_0_1_n_n_wf : DotDims.WF S512x1024 S1024x512 S512x512 [1] [0] [0] [1] [] []
  dot_S512x1024_S1024x64_S512x64_1_0_0_1_n_n_wf : DotDims.WF S512x1024 S1024x64 S512x64 [1] [0] [0] [1] [] []
  dot_S512x512_S512x1024_S512x1024_1_0_0_1_n_n_wf : DotDims.WF S512x512 S512x1024 S512x1024 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .bf16 = 32 ∨ (Rect.block (s := S1024x64) S1024x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .bf16 = 32 ∨ (Rect.block (s := S64x1024) S64x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .bf16 = 32 ∨ (Rect.block (s := S1024x512) S1024x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S16384x512.size a
  hwx0_10 : ∀ i : grid0.Coords, EltTy.bits .f32 = 32 ∨ (Rect.block (s := S16384x512) S512x512.size (cc0_transform_10 i) (hinb0_10 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S1024x512 : Shape := ⟨2, ![1024, 512]⟩
abbrev S512 : Shape := ⟨1, ![512]⟩
abbrev S1024x64 : Shape := ⟨2, ![1024, 64]⟩
abbrev S576x1024 : Shape := ⟨2, ![576, 1024]⟩
abbrev S1024 : Shape := ⟨1, ![1024]⟩
abbrev S32x512x512 : Shape := ⟨3, ![32, 512, 512]⟩
abbrev S1x1x512 : Shape := ⟨3, ![1, 1, 512]⟩
abbrev S32x512x64 : Shape := ⟨3, ![32, 512, 64]⟩
abbrev S_ : Shape := ⟨0, ![]⟩
abbrev S32x512x576 : Shape := ⟨3, ![32, 512, 576]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S1024x512, .f32⟩
  | .hbm, ⟨2, _⟩ => ⟨S512, .f32⟩
  | .hbm, ⟨3, _⟩ => ⟨S1024x64, .f32⟩
  | .hbm, ⟨4, _⟩ => ⟨S576x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S32x512x512, .f32⟩
  | .hbm, ⟨9, _⟩ => ⟨S1x1x512, .f32⟩
  | .hbm, ⟨10, _⟩ => ⟨S32x512x512, .f32⟩
  | .hbm, ⟨11, _⟩ => ⟨S32x512x512, .f32⟩
  | .hbm, ⟨12, _⟩ => ⟨S32x512x64, .f32⟩
  | .hbm, ⟨13, _⟩ => ⟨S32x512x1024, .f32⟩
  | .hbm, ⟨14, _⟩ => ⟨S1024x64, .f32⟩
  | .hbm, ⟨15, _⟩ => ⟨S32x512x64, .f32⟩
  | .hbm, ⟨16, _⟩ => ⟨S32x512x64, .f32⟩
  | .hbm, ⟨17, _⟩ => ⟨S32x512x64, .f32⟩
  | .hbm, ⟨18, _⟩ => ⟨S_, .f32⟩
  | .hbm, ⟨19, _⟩ => ⟨S32x512x64, .f32⟩
  | .hbm, ⟨20, _⟩ => ⟨S32x512x64, .f32⟩
  | .hbm, ⟨21, _⟩ => ⟨S32x512x576, .f32⟩
  | .hbm, ⟨22, _⟩ => ⟨S32x512x1024, .f32⟩
  | .hbm, ⟨23, _⟩ => ⟨S1x1x1024, .f32⟩
  | .hbm, ⟨24, _⟩ => ⟨S32x512x1024, .f32⟩
  | .hbm, ⟨25, _⟩ => ⟨S32x512x1024, .f32⟩
  | .hbm, ⟨26, _⟩ => ⟨S_, .f32⟩
  | .hbm, ⟨27, _⟩ => ⟨S32x512x1024, .f32⟩
  | .hbm, ⟨28, _⟩ => ⟨S32x512x1024, .f32⟩
  | .hbm, ⟨29, _⟩ => ⟨S32x512x512, .f32⟩
  | .hbm, ⟨30, _⟩ => ⟨S1x1x512, .f32⟩
  | .hbm, ⟨31, _⟩ => ⟨S32x512x512, .f32⟩
  | .hbm, ⟨32, _⟩ => ⟨S32x512x512, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x512x512_0_1_2 : S1x1x512.BroadcastsInDim S32x512x512 (![0, 1, 2] : Fin 3 → Fin S32x512x512.rank)
  bcast_S_S32x512x64 : S_.BroadcastsInDim S32x512x64 (![] : Fin 0 → Fin S32x512x64.rank)
  concatenates_S32x512x512_S32x512x64_S32x512x576_d2 : Shape.Concatenates [S32x512x512, S32x512x64] S32x512x576 2
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  bcast_S_S32x512x1024 : S_.BroadcastsInDim S32x512x1024 (![] : Fin 0 → Fin S32x512x1024.rank)
  dot_S32x512x1024_S1024x512_S32x512x512_2_0_01_1_n_n_wf : DotDims.WF S32x512x1024 S1024x512 S32x512x512 [2] [0] [0, 1] [1] [] []
  dot_S32x512x1024_S1024x64_S32x512x64_2_0_01_1_n_n_wf : DotDims.WF S32x512x1024 S1024x64 S32x512x64 [2] [0] [0, 1] [1] [] []
  dot_S32x512x576_S576x1024_S32x512x1024_2_0_01_1_n_n_wf : DotDims.WF S32x512x576 S576x1024 S32x512x1024 [2] [0] [0, 1] [1] [] []

variable [Facts₀]

def dot_S32x512x1024_S1024x512_S32x512x512_2_0_01_1_n_n : DotDims S32x512x1024 S1024x512 S32x512x512 where
  lhsContracting := [2]
  rhsContracting := [0]
  lhsNonContracting := [0, 1]
  rhsNonContracting := [1]
  lhsBatch := []
  rhsBatch := []
  wf := dot_S32x512x1024_S1024x512_S32x512x512_2_0_01_1_n_n_wf
def dot_S32x512x1024_S1024x64_S32x512x64_2_0_01_1_n_n : DotDims S32x512x1024 S1024x64 S32x512x64 where
  lhsContracting := [2]
  rhsContracting := [0]
  lhsNonContracting := [0, 1]
  rhsNonContracting := [1]
  lhsBatch := []
  rhsBatch := []
  wf := dot_S32x512x1024_S1024x64_S32x512x64_2_0_01_1_n_n_wf
def dot_S32x512x576_S576x1024_S32x512x1024_2_0_01_1_n_n : DotDims S32x512x576 S576x1024 S32x512x1024 where
  lhsContracting := [2]
  rhsContracting := [0]
  lhsNonContracting := [0, 1]
  rhsNonContracting := [1]
  lhsBatch := []
  rhsBatch := []
  wf := dot_S32x512x576_S576x1024_S32x512x1024_2_0_01_1_n_n_wf

class Facts : Prop extends Facts₀ where

variable [Facts]
-- ==== Proof.Spec.lean ====
/-
  The function both programs compute, on ONE row of the input.

  For a row `x` of 1024 extended reals the network is
    lin c  = (∑ i, x i · Wl i c) + bl c                                    (512 entries)
    fm k   = half · ((∑ i, x i · V i k)² − ∑ i, (x i · x i) · V2 i k)       (64 entries)
    hid h  = max (((∑ c, lin c · W1a c h) + (∑ k, fm k · W1b k h)) + b1 h) zero
    out o  = (∑ h, hid h · W2 h o) + b2 o.
  The first-layer weight arrives as its first 512 rows `W1a` and its last 64 rows `W1b`: one side multiplies the
  two pieces separately and adds, the other multiplies the joined 576-vector by the whole 576-row matrix. The two
  agree because a sum over 576 = 512 + 64 indices is the sum over the first 512 plus the sum over the last 64
  (`sum_split`), which needs only that addition of extended reals is commutative and associative.
-/
import Idealize.ShloMosaic.PureOps.Ideal
import Idealize.ShloMosaic.Lib.ValueIdx
import Mathlib.Algebra.BigOperators.Fin

noncomputable section

open scoped BigOperators

namespace Cert.Spec

/-- The linear part of a row: `(∑ i, x i · Wl i c) + bl c`. -/
def lin (x : Fin 1024 → EReal) (Wl : Fin 1024 → Fin 512 → EReal) (bl : Fin 512 → EReal) (c : Fin 512) : EReal :=
  (∑ i : Fin 1024, x i * Wl i c) + bl c

/-- The second-order part of a row: `half · ((x·V)ₖ² − ((x∘x)·V2)ₖ)`. -/
def fm (half : EReal) (x : Fin 1024 → EReal) (V V2 : Fin 1024 → Fin 64 → EReal) (k : Fin 64) : EReal :=
  half * ((∑ i : Fin 1024, x i * V i k) * (∑ i : Fin 1024, x i * V i k) - ∑ i : Fin 1024, (x i * x i) * V2 i k)

/-- The hidden layer from the two parts, the first-layer weight given as its two row blocks. -/
def hid (zero : EReal) (l : Fin 512 → EReal) (f : Fin 64 → EReal) (W1a : Fin 512 → Fin 1024 → EReal)
    (W1b : Fin 64 → Fin 1024 → EReal) (b1 : Fin 1024 → EReal) (h : Fin 1024) : EReal :=
  max (((∑ c : Fin 512, l c * W1a c h) + (∑ k : Fin 64, f k * W1b k h)) + b1 h) zero

/-- One row of the result. -/
def mlpRow (half zero : EReal) (x : Fin 1024 → EReal) (Wl : Fin 1024 → Fin 512 → EReal) (bl : Fin 512 → EReal)
    (V V2 : Fin 1024 → Fin 64 → EReal) (W1a : Fin 512 → Fin 1024 → EReal) (W1b : Fin 64 → Fin 1024 → EReal)
    (b1 : Fin 1024 → EReal) (W2 : Fin 1024 → Fin 512 → EReal) (b2 : Fin 512 → EReal) (o : Fin 512) : EReal :=
  (∑ h : Fin 1024, hid zero (lin x Wl bl) (fm half x V V2) W1a W1b b1 h * W2 h o) + b2 o

/-- Position `c` among the first 512 of 576. -/
abbrev lo (c : Fin 512) : Fin 576 := ⟨c.val, by have := c.isLt; omega⟩
/-- Position `k` among the last 64 of 576. -/
abbrev hi (k : Fin 64) : Fin 576 := ⟨512 + k.val, by have := k.isLt; omega⟩

/-- A sum over 576 indices is the sum over the first 512 plus the sum over the last 64. -/
theorem sum_split (f : Fin 576 → EReal) :
    ∑ c : Fin 576, f c = (∑ c : Fin 512, f (lo c)) + ∑ k : Fin 64, f (hi k) := by
  exact Fin.sum_univ_add (a := 512) (b := 64) (f : Fin (512 + 64) → EReal)

/-! ## The whole result, as one function of the arrays -/

open Idealize.ShloMosaic Idealize.ShloMosaic.ValueIdx

/-- The result over the input flattened to 16384 rows, every weight as a matrix (a bias as a one-row matrix,
    the first-layer weight as its two row blocks, the squared factor matrix as an array of its own): row `r` of the
    result is the network on row `r` of the input. -/
def rows (half zero : EReal) (A0 : (⟨2, ![16384, 1024]⟩ : Shape).Idx → EReal) (A1 : (⟨2, ![1024, 512]⟩ : Shape).Idx → EReal)
    (A2 : (⟨2, ![1, 512]⟩ : Shape).Idx → EReal) (A3 A4 : (⟨2, ![1024, 64]⟩ : Shape).Idx → EReal)
    (A5 : (⟨2, ![512, 1024]⟩ : Shape).Idx → EReal) (A6 : (⟨2, ![64, 1024]⟩ : Shape).Idx → EReal)
    (A7 : (⟨2, ![1, 1024]⟩ : Shape).Idx → EReal) (A8 : (⟨2, ![1024, 512]⟩ : Shape).Idx → EReal)
    (A9 : (⟨2, ![1, 512]⟩ : Shape).Idx → EReal) : (⟨2, ![16384, 512]⟩ : Shape).Idx → EReal := fun r =>
  mlpRow half zero (fun i => A0 (ix2 (⟨(r 0).val, idx2_lt0 r⟩ : Fin 16384) i)) (fun i c => A1 (ix2 i c))
    (fun c => A2 (ix2 (0 : Fin 1) c)) (fun i k => A3 (ix2 i k)) (fun i k => A4 (ix2 i k)) (fun c h => A5 (ix2 c h))
    (fun k h => A6 (ix2 k h)) (fun h => A7 (ix2 (0 : Fin 1) h)) (fun h q => A8 (ix2 h q)) (fun q => A9 (ix2 (0 : Fin 1) q))
    (⟨(r 1).val, idx2_lt1 r⟩ : Fin 512)

/-- The result over the arguments as given: entry (b, s, o) is the network on row (b, s) of the input, the
    first-layer weight's two row blocks read out of the one 576-row matrix. -/
def net (half zero : EReal) (X : (⟨3, ![32, 512, 1024]⟩ : Shape).Idx → EReal) (Wl : (⟨2, ![1024, 512]⟩ : Shape).Idx → EReal)
    (bl : (⟨1, ![512]⟩ : Shape).Idx → EReal) (V : (⟨2, ![1024, 64]⟩ : Shape).Idx → EReal)
    (W1 : (⟨2, ![576, 1024]⟩ : Shape).Idx → EReal) (b1 : (⟨1, ![1024]⟩ : Shape).Idx → EReal)
    (W2 : (⟨2, ![1024, 512]⟩ : Shape).Idx → EReal) (b2 : (⟨1, ![512]⟩ : Shape).Idx → EReal) :
    (⟨3, ![32, 512, 512]⟩ : Shape).Idx → EReal := fun j =>
  mlpRow half zero (fun i => X (ix3 (⟨(j 0).val, (j 0).isLt⟩ : Fin 32) (⟨(j 1).val, (j 1).isLt⟩ : Fin 512) i))
    (fun i c => Wl (ix2 i c)) (fun c => bl (ix1 c)) (fun i k => V (ix2 i k)) (fun i k => V (ix2 i k) * V (ix2 i k))
    (fun c h => W1 (ix2 (lo c) h)) (fun k h => W1 (ix2 (hi k) h)) (fun h => b1 (ix1 h)) (fun h q => W2 (ix2 h q))
    (fun q => b2 (ix1 q)) (⟨(j 2).val, (j 2).isLt⟩ : Fin 512)

end Cert.Spec

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KernelRow.lean ====
/-
  The kernel body's stored value, read at one entry.

  At a grid point the body loads a 512-row block of the input and the whole weight arrays, and stores one
  512 × 512 block. Entry (s, o) of that block depends on row s of the input block only: it is `Spec.mlpRow` of
  that row and the weights. Every product in the body is rows × columns with one shared coordinate, accumulated
  into zeros, so at the extended reals it is the plain sum `∑ k, A (s, k) · B (k, o)`; a change of float format
  is the identity there; a bias row [1, n] broadcast over the rows reads its one row.
-/
import proofs.«151016_j88888643158051_1_alg».proof.Proof.Gen.KernelIdeal.Skeleton
import proofs.«151016_j88888643158051_1_alg».proof.Proof.Spec
import proofs.«151016_j88888643158051_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Idealize.ShloMosaic Idealize.ShloMosaic.ValueIdx Cert.KernelIdeal Cert.KernelIdeal.Gen

/-- A rows × columns product accumulated into zeros, read at (a, b): `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply _ prec A B _).trans
    ((Ideal.dotGeneral_apply _ prec .single A B _).symm.trans (Cert.LibLayout.dotGeneral_plain_apply prec .single A B a b))

/-- The body's four products are rows × columns products. -/
theorem dot_lin_eq : dot_S512x1024_S1024x512_S512x512_1_0_0_1_n_n = DotDims.plain 512 1024 512 := rfl
theorem dot_fm_eq : dot_S512x1024_S1024x64_S512x64_1_0_0_1_n_n = DotDims.plain 512 1024 64 := rfl
theorem dot_hidA_eq : dot_S512x512_S512x1024_S512x1024_1_0_0_1_n_n = DotDims.plain 512 512 1024 := rfl
theorem dot_hidB_eq : dot_S512x64_S64x1024_S512x1024_1_0_0_1_n_n = DotDims.plain 512 64 1024 := rfl

theorem mm_lin (A : FVec Ideal S512x1024 .bf16) (B : FVec Ideal S1024x512 .bf16) (p : Fin 512) (q : Fin 512) :
    FloatOps.matmul dot_S512x1024_S1024x512_S512x512_1_0_0_1_n_n none A B (constant S512x512 .f32 0x00000000#32) (ix2 p q)
      = ∑ c : Fin 1024, A (ix2 p c) * B (ix2 c q) := by
  rw [dot_lin_eq]; exact matmul_plain_zero_apply none A B p q

theorem mm_fm (A : FVec Ideal S512x1024 .bf16) (B : FVec Ideal S1024x64 .bf16) (p : Fin 512) (q : Fin 64) :
    FloatOps.matmul dot_S512x1024_S1024x64_S512x64_1_0_0_1_n_n none A B (constant S512x64 .f32 0x00000000#32) (ix2 p q)
      = ∑ c : Fin 1024, A (ix2 p c) * B (ix2 c q) := by
  rw [dot_fm_eq]; exact matmul_plain_zero_apply none A B p q

theorem mm_hidA (A : FVec Ideal S512x512 .bf16) (B : FVec Ideal S512x1024 .bf16) (p : Fin 512) (q : Fin 1024) :
    FloatOps.matmul dot_S512x512_S512x1024_S512x1024_1_0_0_1_n_n none A B (constant S512x1024 .f32 0x00000000#32) (ix2 p q)
      = ∑ c : Fin 512, A (ix2 p c) * B (ix2 c q) := by
  rw [dot_hidA_eq]; exact matmul_plain_zero_apply none A B p q

theorem mm_hidB (A : FVec Ideal S512x64 .bf16) (B : FVec Ideal S64x1024 .bf16) (p : Fin 512) (q : Fin 1024) :
    FloatOps.matmul dot_S512x64_S64x1024_S512x1024_1_0_0_1_n_n none A B (constant S512x1024 .f32 0x00000000#32) (ix2 p q)
      = ∑ c : Fin 64, A (ix2 p c) * B (ix2 c q) := by
  rw [dot_hidB_eq]; exact matmul_plain_zero_apply none A B p q

/-- Entry (s, o) of the block the body stores is the network on row s of the input block. -/
theorem pay_apply (x0 : Vec Ideal S512x1024 .f32) (x1 : Vec Ideal S1024x512 .bf16) (x2 : Vec Ideal S1x512 .f32)
    (x3 x4 : Vec Ideal S1024x64 .bf16) (x5 : Vec Ideal S512x1024 .bf16) (x6 : Vec Ideal S64x1024 .bf16)
    (x7 : Vec Ideal S1x1024 .f32) (x8 : Vec Ideal S1024x512 .bf16) (x9 : Vec Ideal S1x512 .f32) (s o : Fin 512) :
    k0_pay1 (F := Ideal) (k0_pay2 (F := Ideal) x0 x1 x2 x3 x4 x5 x6 x7) (k0_pay3 (F := Ideal)) x8 x9 (ix2 s o)
      = Spec.mlpRow (Ideal.ofBits .f32 0x3F000000#32) (Ideal.ofBits .f32 0x00000000#32)
          (fun i => x0 (ix2 s i)) (fun i c => x1 (ix2 i c)) (fun c => x2 (ix2 (0 : Fin 1) c))
          (fun i k => x3 (ix2 i k)) (fun i k => x4 (ix2 i k))
          (fun c h => x5 (ix2 c h)) (fun k h => x6 (ix2 k h)) (fun h => x7 (ix2 (0 : Fin 1) h))
          (fun h q => x8 (ix2 h q)) (fun q => x9 (ix2 (0 : Fin 1) q)) o := by
  unfold k0_pay1 k0_pay2 k0_pay3 Spec.mlpRow Spec.hid Spec.lin Spec.fm
  simp only [shapeCast_self, matmul, addf_apply, mulf_apply, subf_apply, maximumf_apply, truncf_apply, broadcast_apply,
    mm_lin, mm_fm, mm_hidA, mm_hidB, broadcastTo_1b_ab_apply]
  rfl

end Cert.KernelIdeal.Row

end
-- ==== Proof.KernelBlocks.lean ====
/-
  From the blocks the grid points write back to the kernel's whole output array.

  The grid has 32 points. Point t stages rows 512·t … 512·t + 511 of the flattened input (all 1024 columns) and
  the whole of every weight array, and writes back rows 512·t … 512·t + 511 of the output (all 512 columns).
  Entry (s, o) of what it writes is the network on row s of its input block (Proof/KernelRow.lean), which is row
  512·t + s of the flattened input: so the block written is block t of ONE function of the arrays, `Spec.rows`.
  The 32 blocks tile the output — row r lies in the block of point r / 512 — so the output array ends at that
  function.
-/
import proofs.«151016_j88888643158051_1_alg».proof.Proof.Gen.KernelIdeal.Frame
import proofs.«151016_j88888643158051_1_alg».proof.Proof.KernelRow
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the input's and the output's block index is (t, 0); every weight's is (0, 0). -/
theorem idx_facts : ∀ t : Fin cfg0.N,
    (win0_0.index t (0 : Fin 2) = t.val ∧ win0_0.index t (1 : Fin 2) = 0)
    ∧ (win0_10.index t (0 : Fin 2) = t.val ∧ win0_10.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## Each staged block, read off its array -/

/-- Entry (s, i) of the input block at point t is entry (512·t + s, i) of the flattened input. -/
theorem iblk0_apply (c : Dev nD) (t : Fin cfg0.N) (s : Fin 512) (i : Fin 1024) (r : Fin 16384) (hr : r.val = 512 * t.val + s.val) :
    (iblk m c 0 t : Vec Ideal S512x1024 .f32) (ix2 s i) = (V m c main_v0 : S16384x1024.Idx → EReal) (ix2 r i) := by
  obtain ⟨⟨h0, h1⟩, -⟩ := idx_facts t
  unfold iblk
  rw [View.read_apply]
  show V m c main_v0 _ = V m c main_v0 _
  congr 1
  funext a
  apply Fin.ext
  match a with
  | ⟨0, _⟩ => show win0_0.index t 0 * 512 + 1 * s.val = r.val; rw [h0, hr]; omega
  | ⟨1, _⟩ => show win0_0.index t 1 * 1024 + 1 * i.val = i.val; rw [h1]; omega

/-- A weight's block is the whole weight array, at every point. -/
theorem iblk1_eq (c : Dev nD) (t : Fin cfg0.N) : (iblk m c 1 t : Vec Ideal S1024x512 .bf16) = V m c main_v1 := by
  obtain ⟨-, -, ⟨h0, h1⟩, -⟩ := idx_facts t
  funext y
  unfold iblk
  rw [View.read_apply]
  show V m c main_v1 _ = V m c main_v1 y
  congr 1
  funext a
  apply Fin.ext
  match a with
  | ⟨0, _⟩ => show win0_1.index t 0 * 1024 + 1 * (y 0).val = (y 0).val; rw [h0]; omega
  | ⟨1, _⟩ => show win0_1.index t 1 * 512 + 1 * (y 1).val = (y 1).val; rw [h1]; omega

theorem iblk2_eq (c : Dev nD) (t : Fin cfg0.N) : (iblk m c 2 t : Vec Ideal S1x512 .f32) = V m c main_v10 := by
  obtain ⟨-, -, -, ⟨h0, h1⟩, -⟩ := idx_facts t
  funext y
  unfold iblk
  rw [View.read_apply]
  show V m c main_v10 _ = V m c main_v10 y
  congr 1
  funext a
  apply Fin.ext
  match a with
  | ⟨0, _⟩ => show win0_2.index t 0 * 1 + 1 * (y 0).val = (y 0).val; rw [h0]; omega
  | ⟨1, _⟩ => show win0_2.index t 1 * 512 + 1 * (y 1).val = (y 1).val; rw [h1]; omega

theorem iblk3_eq (c : Dev nD) (t : Fin cfg0.N) : (iblk m c 3 t : Vec Ideal S1024x64 .bf16) = V m c main_v2 := by
  obtain ⟨-, -, -, -, ⟨h0, h1⟩, -⟩ := idx_facts t
  funext y
  unfold iblk
  rw [View.read_apply]
  show V m c main_v2 _ = V m c main_v2 y
  congr 1
  funext a
  apply Fin.ext
  match a with
  | ⟨0, _⟩ => show win0_3.index t 0 * 1024 + 1 * (y 0).val = (y 0).val; rw [h0]; omega
  | ⟨1, _⟩ => show win0_3.index t 1 * 64 + 1 * (y 1).val = (y 1).val; rw [h1]; omega

theorem iblk4_eq (c : Dev nD) (t : Fin cfg0.N) : (iblk m c 4 t : Vec Ideal S1024x64 .bf16) = V m c main_v4 := by
  obtain ⟨-, -, -, -, -, ⟨h0, h1⟩, -⟩ := idx_facts t
  funext y
  unfold iblk
  rw [View.read_apply]
  show V m c main_v4 _ = V m c main_v4 y
  congr 1
  funext a
  apply Fin.ext
  match a with
  | ⟨0, _⟩ => show win0_4.index t 0 * 1024 + 1 * (y 0).val = (y 0).val; rw [h0]; omega
  | ⟨1, _⟩ => show win0_4.index t 1 * 64 + 1 * (y 1).val = (y 1).val; rw [h1]; omega

theorem iblk5_eq (c : Dev nD) (t : Fin cfg0.N) : (iblk m c 5 t : Vec Ideal S512x1024 .bf16) = V m c main_v6 := by
  obtain ⟨-, -, -, -, -, -, ⟨h0, h1⟩, -⟩ := idx_facts t
  funext y
  unfold iblk
  rw [View.read_apply]
  show V m c main_v6 _ = V m c main_v6 y
  congr 1
  funext a
  apply Fin.ext
  match a with
  | ⟨0, _⟩ => show win0_5.index t 0 * 512 + 1 * (y 0).val = (y 0).val; rw [h0]; omega
  | ⟨1, _⟩ => show win0_5.index t 1 * 1024 + 1 * (y 1).val = (y 1).val; rw [h1]; omega

theorem iblk6_eq (c : Dev nD) (t : Fin cfg0.N) : (iblk m c 6 t : Vec Ideal S64x1024 .bf16) = V m c main_v8 := by
  obtain ⟨-, -, -, -, -, -, -, ⟨h0, h1⟩, -⟩ := idx_facts t
  funext y
  unfold iblk
  rw [View.read_apply]
  show V m c main_v8 _ = V m c main_v8 y
  congr 1
  funext a
  apply Fin.ext
  match a with
  | ⟨0, _⟩ => show win0_6.index t 0 * 64 + 1 * (y 0).val = (y 0).val; rw [h0]; omega
  | ⟨1, _⟩ => show win0_6.index t 1 * 1024 + 1 * (y 1).val = (y 1).val; rw [h1]; omega

theorem iblk7_eq (c : Dev nD) (t : Fin cfg0.N) : (iblk m c 7 t : Vec Ideal S1x1024 .f32) = V m c main_v11 := by
  obtain ⟨-, -, -, -, -, -, -, -, ⟨h0, h1⟩, -⟩ := idx_facts t
  funext y
  unfold iblk
  rw [View.read_apply]
  show V m c main_v11 _ = V m c main_v11 y
  congr 1
  funext a
  apply Fin.ext
  match a with
  | ⟨0, _⟩ => show win0_7.index t 0 * 1 + 1 * (y 0).val = (y 0).val; rw [h0]; omega
  | ⟨1, _⟩ => show win0_7.index t 1 * 1024 + 1 * (y 1).val = (y 1).val; rw [h1]; omega

theorem iblk8_eq (c : Dev nD) (t : Fin cfg0.N) : (iblk m c 8 t : Vec Ideal S1024x512 .bf16) = V m c main_v9 := by
  obtain ⟨-, -, -, -, -, -, -, -, -, ⟨h0, h1⟩, -⟩ := idx_facts t
  funext y
  unfold iblk
  rw [View.read_apply]
  show V m c main_v9 _ = V m c main_v9 y
  congr 1
  funext a
  apply Fin.ext
  match a with
  | ⟨0, _⟩ => show win0_8.index t 0 * 1024 + 1 * (y 0).val = (y 0).val; rw [h0]; omega
  | ⟨1, _⟩ => show win0_8.index t 1 * 512 + 1 * (y 1).val = (y 1).val; rw [h1]; omega

theorem iblk9_eq (c : Dev nD) (t : Fin cfg0.N) : (iblk m c 9 t : Vec Ideal S1x512 .f32) = V m c main_v12 := by
  obtain ⟨-, -, -, -, -, -, -, -, -, -, h0, h1⟩ := idx_facts t
  funext y
  unfold iblk
  rw [View.read_apply]
  show V m c main_v12 _ = V m c main_v12 y
  congr 1
  funext a
  apply Fin.ext
  match a with
  | ⟨0, _⟩ => show win0_9.index t 0 * 1 + 1 * (y 0).val = (y 0).val; rw [h0]; omega
  | ⟨1, _⟩ => show win0_9.index t 1 * 512 + 1 * (y 1).val = (y 1).val; rw [h1]; omega

/-! ## What a point writes back, and the array after the run -/

/-- The output array as one function of the arrays the region finds. -/
abbrev outArr (c : Dev nD) : S16384x512.Idx → EReal :=
  Spec.rows (Ideal.ofBits .f32 0x3F000000#32) (Ideal.ofBits .f32 0x00000000#32)
    (V m c main_v0) (V m c main_v1) (V m c main_v10) (V m c main_v2) (V m c main_v4) (V m c main_v6) (V m c main_v8)
    (V m c main_v11) (V m c main_v9) (V m c main_v12)

/-- The network on row s of point t's input block is `outArr` at any index with row 512·t + s and column o. -/
theorem outArr_of_block (c : Dev nD) (t : Fin cfg0.N) (s o : Fin 512) (e : S16384x512.Idx)
    (e0 : (e 0).val = 512 * t.val + s.val) (e1 : (e 1).val = o.val) :
    Spec.mlpRow (Ideal.ofBits .f32 0x3F000000#32) (Ideal.ofBits .f32 0x00000000#32)
        (fun i => (iblk m c 0 t : Vec Ideal S512x1024 .f32) (ix2 s i))
        (fun i c_1 => V m c main_v1 (ix2 i c_1)) (fun c_1 => V m c main_v10 (ix2 (0 : Fin 1) c_1))
        (fun i k => V m c main_v2 (ix2 i k)) (fun i k => V m c main_v4 (ix2 i k)) (fun c_1 h => V m c main_v6 (ix2 c_1 h))
        (fun k h => V m c main_v8 (ix2 k h)) (fun h => V m c main_v11 (ix2 (0 : Fin 1) h)) (fun h q => V m c main_v9 (ix2 h q))
        (fun q => V m c main_v12 (ix2 (0 : Fin 1) q)) o
      = outArr m c e := by
  have hx : (fun i => (iblk m c 0 t : Vec Ideal S512x1024 .f32) (ix2 s i))
      = fun i => (V m c main_v0 : S16384x1024.Idx → EReal) (ix2 (⟨(e 0).val, idx2_lt0 e⟩ : Fin 16384) i) :=
    funext fun i => iblk0_apply m c t s i _ e0
  have ho : o = (⟨(e 1).val, idx2_lt1 e⟩ : Fin 512) := Fin.ext e1.symm
  rw [hx]
  show _ = Spec.rows _ _ _ _ _ _ _ _ _ _ _ _ e
  unfold Spec.rows
  rw [← ho]

/-- Point t writes back block t of `outArr`. -/
theorem flushed_eq (c : Dev nD) (t : Fin cfg0.N) :
    (dats m 0 c).flushed 10 t = ((cfg0.win 10).blk t).view.read (Elt Ideal) (outArr m c) := by
  show (cfg0.win 10).cut (grid0.coords t) ((dats m 0 c).after 10 t) = _
  rw [after0_10]
  unfold out0_10
  rw [View.canon_unit_zero hz]
  simp only [View.ld_unit_zero (S := S512x1024) hz, View.ld_unit_zero (S := S1024x512) hz, View.ld_unit_zero (S := S1x512) hz,
    View.ld_unit_zero (S := S1024x64) hz, View.ld_unit_zero (S := S64x1024) hz, View.ld_unit_zero (S := S1x1024) hz]
  obtain ⟨-, ⟨h0, h1⟩, -⟩ := idx_facts t
  funext j
  obtain ⟨s, o, rfl⟩ : ∃ (s o : Fin 512), j = ix2 s o := ⟨j 0, j 1, eq_ix2 j⟩
  refine (Row.pay_apply (iblk m c 0 t) (iblk m c 1 t) (iblk m c 2 t) (iblk m c 3 t) (iblk m c 4 t) (iblk m c 5 t)
    (iblk m c 6 t) (iblk m c 7 t) (iblk m c 8 t) (iblk m c 9 t) s o).trans ?_
  rw [iblk1_eq, iblk2_eq, iblk3_eq, iblk4_eq, iblk5_eq, iblk6_eq, iblk7_eq, iblk8_eq, iblk9_eq, View.read_apply]
  exact outArr_of_block m c t s o _
    (by show win0_10.index t 0 * 512 + 1 * s.val = 512 * t.val + s.val; rw [h0]; omega)
    (by show win0_10.index t 1 * 512 + 1 * o.val = o.val; rw [h1]; omega)

/-- An index of the output array is in point t's block iff each coordinate is in the block's range on its axis. -/
theorem mem_blk (t : Fin cfg0.N) (i : S16384x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v13).slice (win0_10.rect t)).set ↔ _
  rw [View.set_slice_whole, Rect.mem_set_unit]
  exact Iff.rfl

/-- Row r of the output lies in the block of point r / 512: the 32 blocks tile the array. -/
theorem cover (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have hN : cfg0.N = 32 := N_0
  refine ⟨⟨(i 0).val / 512, by rw [hN]; omega⟩, flush0_10 _, ?_⟩
  rw [mem_blk]
  obtain ⟨-, ⟨h0, h1⟩, -⟩ := idx_facts ⟨(i 0).val / 512, by rw [hN]; omega⟩
  intro a
  match a with
  | ⟨0, _⟩ =>
    show win0_10.index _ (0 : Fin 2) * 512 ≤ (i 0).val ∧ (i 0).val < win0_10.index _ (0 : Fin 2) * 512 + 512
    rw [h0]; show (i 0).val / 512 * 512 ≤ (i 0).val ∧ (i 0).val < (i 0).val / 512 * 512 + 512; omega
  | ⟨1, _⟩ =>
    show win0_10.index _ (1 : Fin 2) * 512 ≤ (i 1).val ∧ (i 1).val < win0_10.index _ (1 : Fin 2) * 512 + 512
    rw [h1]; omega

/-- The output array after the run. -/
theorem final (c : Dev nD) : (dats m 0 c).arrAt 10 cfg0.N = outArr m c :=
  (dats m 0 c).arrAt_eq_of_cover 10 (outArr m c) (fun t _ => flushed_eq m c t) cover

end Cert.KernelIdeal.Blocks

end
-- ==== Proof.Flat.lean ====
/-
  The flattened form of the result is the result.

  One side flattens the input [32, 512, 1024] to [16384, 1024] (row 512·b + s is row (b, s)), views each bias
  vector [n] as a one-row matrix [1, n], takes rows 0 … 511 and rows 512 … 575 of the first-layer weight as two
  matrices, computes `Spec.rows` and views the [16384, 512] result as [32, 512, 512]. Every step only moves
  entries, so entry (b, s, o) of what comes out is `Spec.net` of the arguments as given.
-/
import proofs.«151016_j88888643158051_1_alg».proof.Proof.Spec
import Idealize.ShloMosaic.Lib.Pipeline.Value
import Idealize.ShloMosaic.Lib.ValueIdx
import Idealize.ShloMosaic.Lib.ValueLayout

noncomputable section

open scoped BigOperators

namespace Cert.Spec

open Idealize.ShloMosaic Idealize.ShloMosaic.ValueIdx

/-- Row 512·b + s of the flattened input is row (b, s) of the input. -/
theorem flat_input_apply (X : (⟨3, ![32, 512, 1024]⟩ : Shape).Idx → EReal)
    (h : (⟨3, ![32, 512, 1024]⟩ : Shape).ShapeCasts ⟨2, ![16384, 1024]⟩) (b : Fin 32) (s : Fin 512) (i : Fin 1024)
    (r : Fin 16384) (hr : r.val = b.val * 512 + s.val) :
    shapeCast ⟨2, ![16384, 1024]⟩ X h (ix2 r i) = X (ix3 b s i) :=
  shapeCast_apply X h _ _ (by
    rw [Shape.rowMajor_val_three, Shape.rowMajor_val_two]
    show (b.val * 512 + s.val) * 1024 + i.val = r.val * 1024 + i.val
    rw [hr])

/-- Entry (b, s, o) of the [16384, 512] array viewed as [32, 512, 512] is its entry (512·b + s, o). -/
theorem unflat_output_apply (Y : (⟨2, ![16384, 512]⟩ : Shape).Idx → EReal)
    (h : (⟨2, ![16384, 512]⟩ : Shape).ShapeCasts ⟨3, ![32, 512, 512]⟩) (b : Fin 32) (s o : Fin 512)
    (r : Fin 16384) (hr : r.val = b.val * 512 + s.val) :
    shapeCast ⟨3, ![32, 512, 512]⟩ Y h (ix3 b s o) = Y (ix2 r o) :=
  shapeCast_apply Y h _ _ (by
    rw [Shape.rowMajor_val_three, Shape.rowMajor_val_two]
    show r.val * 512 + o.val = (b.val * 512 + s.val) * 512 + o.val
    rw [hr])

/-- The flattened computation, viewed back at [32, 512, 512], is `net`. -/
theorem rows_flat (half zero : EReal) (X : (⟨3, ![32, 512, 1024]⟩ : Shape).Idx → EReal)
    (Wl : (⟨2, ![1024, 512]⟩ : Shape).Idx → EReal) (bl : (⟨1, ![512]⟩ : Shape).Idx → EReal)
    (V : (⟨2, ![1024, 64]⟩ : Shape).Idx → EReal) (W1 : (⟨2, ![576, 1024]⟩ : Shape).Idx → EReal)
    (b1 : (⟨1, ![1024]⟩ : Shape).Idx → EReal) (W2 : (⟨2, ![1024, 512]⟩ : Shape).Idx → EReal)
    (b2 : (⟨1, ![512]⟩ : Shape).Idx → EReal)
    (hX : (⟨3, ![32, 512, 1024]⟩ : Shape).ShapeCasts ⟨2, ![16384, 1024]⟩)
    (hb : (⟨1, ![512]⟩ : Shape).ShapeCasts ⟨2, ![1, 512]⟩) (hb1 : (⟨1, ![1024]⟩ : Shape).ShapeCasts ⟨2, ![1, 1024]⟩)
    (hlo : (⟨2, ![576, 1024]⟩ : Shape).Slices ![0, 0] ⟨2, ![512, 1024]⟩)
    (hhi : (⟨2, ![576, 1024]⟩ : Shape).Slices ![512, 0] ⟨2, ![64, 1024]⟩)
    (hY : (⟨2, ![16384, 512]⟩ : Shape).ShapeCasts ⟨3, ![32, 512, 512]⟩) :
    shapeCast ⟨3, ![32, 512, 512]⟩
        (rows half zero (shapeCast ⟨2, ![16384, 1024]⟩ X hX) Wl (shapeCast ⟨2, ![1, 512]⟩ bl hb) V (fun i => V i * V i)
          (extractStridedSlice ⟨2, ![512, 1024]⟩ ![0, 0] W1 hlo) (extractStridedSlice ⟨2, ![64, 1024]⟩ ![512, 0] W1 hhi)
          (shapeCast ⟨2, ![1, 1024]⟩ b1 hb1) W2 (shapeCast ⟨2, ![1, 512]⟩ b2 hb)) hY
      = net half zero X Wl bl V W1 b1 W2 b2 := by
  funext j
  obtain ⟨b, s, o, rfl⟩ : ∃ (b : Fin 32) (s o : Fin 512), j = ix3 b s o := ⟨j 0, j 1, j 2, eq_ix3 j⟩
  have hr : b.val * 512 + s.val < 16384 := by have := b.isLt; have := s.isLt; omega
  refine (unflat_output_apply _ hY b s o ⟨b.val * 512 + s.val, hr⟩ rfl).trans ?_
  unfold rows net
  have e0 : ∀ i : Fin 1024, shapeCast ⟨2, ![16384, 1024]⟩ X hX (ix2 (⟨b.val * 512 + s.val, hr⟩ : Fin 16384) i) = X (ix3 b s i) :=
    fun i => flat_input_apply X hX b s i _ rfl
  have elo : ∀ (c : Fin 512) (h : Fin 1024), extractStridedSlice ⟨2, ![512, 1024]⟩ ![0, 0] W1 hlo (ix2 c h) = W1 (ix2 (lo c) h) :=
    fun c h => slice2_axis0_apply 0 W1 hlo c h (lo c) (by show c.val = 0 + c.val; omega)
  have ehi : ∀ (k : Fin 64) (h : Fin 1024), extractStridedSlice ⟨2, ![64, 1024]⟩ ![512, 0] W1 hhi (ix2 k h) = W1 (ix2 (hi k) h) :=
    fun k h => slice2_axis0_apply 512 W1 hhi k h (hi k) rfl
  show mlpRow half zero (fun i => shapeCast ⟨2, ![16384, 1024]⟩ X hX (ix2 (⟨b.val * 512 + s.val, hr⟩ : Fin 16384) i)) _ _ _ _ _ _ _ _ _ o
    = mlpRow half zero (fun i => X (ix3 b s i)) _ _ _ _ _ _ _ _ _ o
  simp only [e0, elo, ehi, shapeCast_a_1a_apply]

end Cert.Spec

end
-- ==== Proof.KernelOut.lean ====
/-
  The kernel program's result.

  Before the region the program flattens the input, converts each weight to the narrow format (the identity on
  extended reals), squares the factor matrix, cuts the first-layer weight into its first 512 and last 64 rows, and
  views each bias vector as a one-row matrix; after the region it views the [16384, 512] output array as
  [32, 512, 512]. With the output array known (Proof/KernelBlocks.lean) the result is `Spec.net` of the arguments
  (Proof/Flat.lean).
-/
import proofs.«151016_j88888643158051_1_alg».proof.Proof.KernelBlocks
import proofs.«151016_j88888643158051_1_alg».proof.Proof.Flat
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Out

open Cert.KernelIdeal Cert.KernelIdeal.Gen Cert.KernelIdeal.Blocks

variable (m : (ℓ : Loc nD τ sig) → Buf (Elt Ideal) ℓ) (ρ : Dev nD → PrngReg)

/-! ## The eight arguments, as arrays of extended reals -/

abbrev aX (c : Dev nD) : S32x512x1024.Idx → EReal := m ((c : Thread nD τ).loc main_arg0)
abbrev aWl (c : Dev nD) : S1024x512.Idx → EReal := m ((c : Thread nD τ).loc main_arg1)
abbrev abl (c : Dev nD) : S512.Idx → EReal := m ((c : Thread nD τ).loc main_arg2)
abbrev aV (c : Dev nD) : S1024x64.Idx → EReal := m ((c : Thread nD τ).loc main_arg3)
abbrev aW1 (c : Dev nD) : S576x1024.Idx → EReal := m ((c : Thread nD τ).loc main_arg4)
abbrev ab1 (c : Dev nD) : S1024.Idx → EReal := m ((c : Thread nD τ).loc main_arg5)
abbrev aW2 (c : Dev nD) : S1024x512.Idx → EReal := m ((c : Thread nD τ).loc main_arg6)
abbrev ab2 (c : Dev nD) : S512.Idx → EReal := m ((c : Thread nD τ).loc main_arg7)

/-! ## The arrays the region finds -/

/-- The flattened input. -/
theorem V_v0 (c : Dev nD) : (V m c main_v0 : S16384x1024.Idx → EReal)
    = shapeCast S16384x1024 (aX m c) shapeCasts_S32x512x1024_S16384x1024 := by
  show StableHlo.after hostOps0 (fun b => m (c, b)) (Proc.devRef .tc main_v0) = _
  after_results
  rfl

/-- The linear weight, converted: unchanged as extended reals. -/
theorem V_v1 (c : Dev nD) : (V m c main_v1 : S1024x512.Idx → EReal) = aWl m c := by
  show StableHlo.after hostOps0 (fun b => m (c, b)) (Proc.devRef .tc main_v1) = _
  after_results
  rfl

/-- The factor matrix, converted. -/
theorem V_v2 (c : Dev nD) : (V m c main_v2 : S1024x64.Idx → EReal) = aV m c := by
  show StableHlo.after hostOps0 (fun b => m (c, b)) (Proc.devRef .tc main_v2) = _
  after_results
  rfl

/-- The factor matrix squared entry by entry, converted. -/
theorem V_v4 (c : Dev nD) : (V m c main_v4 : S1024x64.Idx → EReal) = fun i => aV m c i * aV m c i := by
  show StableHlo.after hostOps0 (fun b => m (c, b)) (Proc.devRef .tc main_v4) = _
  after_results
  rfl

/-- Rows 0 … 511 of the first-layer weight, converted. -/
theorem V_v6 (c : Dev nD) : (V m c main_v6 : S512x1024.Idx → EReal)
    = extractStridedSlice S512x1024 ![0, 0] (aW1 m c) slices_S576x1024_S512x1024_0_0 := by
  show StableHlo.after hostOps0 (fun b => m (c, b)) (Proc.devRef .tc main_v6) = _
  after_results
  rfl

/-- Rows 512 … 575 of the first-layer weight, converted. -/
theorem V_v8 (c : Dev nD) : (V m c main_v8 : S64x1024.Idx → EReal)
    = extractStridedSlice S64x1024 ![512, 0] (aW1 m c) slices_S576x1024_S64x1024_512_0 := by
  show StableHlo.after hostOps0 (fun b => m (c, b)) (Proc.devRef .tc main_v8) = _
  after_results
  rfl

/-- The second-layer weight, converted. -/
theorem V_v9 (c : Dev nD) : (V m c main_v9 : S1024x512.Idx → EReal) = aW2 m c := by
  show StableHlo.after hostOps0 (fun b => m (c, b)) (Proc.devRef .tc main_v9) = _
  after_results
  rfl

/-- The three bias vectors as one-row matrices. -/
theorem V_v10 (c : Dev nD) : (V m c main_v10 : S1x512.Idx → EReal) = shapeCast S1x512 (abl m c) shapeCasts_S512_S1x512 := by
  show StableHlo.after hostOps0 (fun b => m (c, b)) (Proc.devRef .tc main_v10) = _
  after_results
  rfl
theorem V_v11 (c : Dev nD) : (V m c main_v11 : S1x1024.Idx → EReal) = shapeCast S1x1024 (ab1 m c) shapeCasts_S1024_S1x1024 := by
  show StableHlo.after hostOps0 (fun b => m (c, b)) (Proc.devRef .tc main_v11) = _
  after_results
  rfl
theorem V_v12 (c : Dev nD) : (V m c main_v12 : S1x512.Idx → EReal) = shapeCast S1x512 (ab2 m c) shapeCasts_S512_S1x512 := by
  show StableHlo.after hostOps0 (fun b => m (c, b)) (Proc.devRef .tc main_v12) = _
  after_results
  rfl

/-- The output array over the arguments: the flattened computation. -/
theorem outArr_eq (c : Dev nD) : outArr m c
    = Spec.rows (Ideal.ofBits .f32 0x3F000000#32) (Ideal.ofBits .f32 0x00000000#32)
        (shapeCast S16384x1024 (aX m c) shapeCasts_S32x512x1024_S16384x1024) (aWl m c)
        (shapeCast S1x512 (abl m c) shapeCasts_S512_S1x512) (aV m c) (fun i => aV m c i * aV m c i)
        (extractStridedSlice S512x1024 ![0, 0] (aW1 m c) slices_S576x1024_S512x1024_0_0)
        (extractStridedSlice S64x1024 ![512, 0] (aW1 m c) slices_S576x1024_S64x1024_512_0)
        (shapeCast S1x1024 (ab1 m c) shapeCasts_S1024_S1x1024) (aW2 m c)
        (shapeCast S1x512 (ab2 m c) shapeCasts_S512_S1x512) := by
  unfold outArr
  rw [V_v0, V_v1, V_v10, V_v2, V_v4, V_v6, V_v8, V_v11, V_v9, V_v12]

/-! ## The result buffer -/

/-- After the region the result buffer is the output array viewed at [32, 512, 512]. -/
theorem tail_v14 (c : Dev nD) : (Pipeline.afterTail₀ cfgs (dats m) 0 (V0 m) [hostOps1] c main_v14 : S32x512x512.Idx → EReal)
    = shapeCast S32x512x512 (outArr m c) shapeCasts_S16384x512_S32x512x512 := by
  unfold Pipeline.afterTail₀
  show StableHlo.after hostOps1 _ (Proc.devRef .tc main_v14) = _
  after_results
  have hw : (Pipeline.withArrays (cfgs 0).spec c (V0 m c) (fun w => (dats m 0 c).arrAt w (cfgs 0).N)
      (Proc.devRef .tc main_v13) : S16384x512.Idx → EReal) = outArr m c :=
    (Pipeline.withArrays_arr spec0 launch0.win.arr_inj c _ _ 10).trans (final m c)
  exact congrArg (fun A : S16384x512.Idx → EReal => shapeCast S32x512x512 A shapeCasts_S16384x512_S32x512x512) hw

/-- The network of the arguments. -/
abbrev result (c : Dev nD) : S32x512x512.Idx → EReal :=
  Spec.net (Ideal.ofBits .f32 0x3F000000#32) (Ideal.ofBits .f32 0x00000000#32)
    (aX m c) (aWl m c) (abl m c) (aV m c) (aW1 m c) (ab1 m c) (aW2 m c) (ab2 m c)

/-- The result buffer is the network of the arguments. -/
theorem result_eq (c : Dev nD) : (Pipeline.afterTail₀ cfgs (dats m) 0 (V0 m) [hostOps1] c main_v14 : S32x512x512.Idx → EReal)
    = result m c := by
  refine (tail_v14 m c).trans ?_
  rw [outArr_eq]
  exact Spec.rows_flat (Ideal.ofBits .f32 0x3F000000#32) (Ideal.ofBits .f32 0x00000000#32)
    (aX m c) (aWl m c) (abl m c) (aV m c) (aW1 m c) (ab1 m c) (aW2 m c) (ab2 m c)
    shapeCasts_S32x512x1024_S16384x1024 shapeCasts_S512_S1x512 shapeCasts_S1024_S1x1024
    slices_S576x1024_S512x1024_0_0 slices_S576x1024_S64x1024_512_0 shapeCasts_S16384x512_S32x512x512

/-! ## The run -/

/-- Every weakly fair execution of the kernel program ends with the result buffer at the network of the arguments
    and the arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Out

end
-- ==== Proof.RefRow.lean ====
/-
  The reference's result, read at one entry.

  Entry (b, s, o) of the reference's result depends on row (b, s) of the input only: it is `Spec.mlpRow` of that
  row and the weights. Each contraction is a sum over the shared coordinate; a bias vector broadcast over the
  leading axes reads its entry at the last coordinate. The reference joins the linear part (512 entries) and the
  second-order part (64 entries) into one 576-vector and multiplies it by the whole first-layer weight: the joined
  vector reads the linear part below position 512 and the second-order part from there on, and the sum over 576
  positions splits into the two sums (`Spec.sum_split`) that the row function has.
-/
import proofs.«151016_j88888643158051_1_alg».proof.Proof.Gen.ReferenceIdeal.Read
import proofs.«151016_j88888643158051_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefRow

open Idealize.ShloMosaic Idealize.ShloMosaic.ValueIdx Cert.ReferenceIdeal Cert.ReferenceIdeal.Read

/-! ## The operand indices of each contraction and broadcast, by coordinates -/

theorem l0 (b : Fin 32) (s o : Fin 512) (k : Fin 1024) : lidx_main_v0 (ix3 b s o) k = ix3 b s k :=
  funext fun a => Fin.ext (by match a with | ⟨0, _⟩ => rfl | ⟨1, _⟩ => rfl | ⟨2, _⟩ => rfl)
theorem r0 (b : Fin 32) (s o : Fin 512) (k : Fin 1024) : ridx_main_v0 (ix3 b s o) k = ix2 k o :=
  funext fun a => Fin.ext (by match a with | ⟨0, _⟩ => rfl | ⟨1, _⟩ => rfl)
theorem l4 (b : Fin 32) (s : Fin 512) (o : Fin 64) (k : Fin 1024) : lidx_main_v4 (ix3 b s o) k = ix3 b s k :=
  funext fun a => Fin.ext (by match a with | ⟨0, _⟩ => rfl | ⟨1, _⟩ => rfl | ⟨2, _⟩ => rfl)
theorem r4 (b : Fin 32) (s : Fin 512) (o : Fin 64) (k : Fin 1024) : ridx_main_v4 (ix3 b s o) k = ix2 k o :=
  funext fun a => Fin.ext (by match a with | ⟨0, _⟩ => rfl | ⟨1, _⟩ => rfl)
theorem l7 (b : Fin 32) (s : Fin 512) (o : Fin 64) (k : Fin 1024) : lidx_main_v7 (ix3 b s o) k = ix3 b s k :=
  funext fun a => Fin.ext (by match a with | ⟨0, _⟩ => rfl | ⟨1, _⟩ => rfl | ⟨2, _⟩ => rfl)
theorem r7 (b : Fin 32) (s : Fin 512) (o : Fin 64) (k : Fin 1024) : ridx_main_v7 (ix3 b s o) k = ix2 k o :=
  funext fun a => Fin.ext (by match a with | ⟨0, _⟩ => rfl | ⟨1, _⟩ => rfl)
theorem l13 (b : Fin 32) (s : Fin 512) (h : Fin 1024) (k : Fin 576) : lidx_main_v13 (ix3 b s h) k = ix3 b s k :=
  funext fun a => Fin.ext (by match a with | ⟨0, _⟩ => rfl | ⟨1, _⟩ => rfl | ⟨2, _⟩ => rfl)
theorem r13 (b : Fin 32) (s : Fin 512) (h : Fin 1024) (k : Fin 576) : ridx_main_v13 (ix3 b s h) k = ix2 k h :=
  funext fun a => Fin.ext (by match a with | ⟨0, _⟩ => rfl | ⟨1, _⟩ => rfl)
theorem l18 (b : Fin 32) (s o : Fin 512) (k : Fin 1024) : lidx_main_v18 (ix3 b s o) k = ix3 b s k :=
  funext fun a => Fin.ext (by match a with | ⟨0, _⟩ => rfl | ⟨1, _⟩ => rfl | ⟨2, _⟩ => rfl)
theorem r18 (b : Fin 32) (s o : Fin 512) (k : Fin 1024) : ridx_main_v18 (ix3 b s o) k = ix2 k o :=
  funext fun a => Fin.ext (by match a with | ⟨0, _⟩ => rfl | ⟨1, _⟩ => rfl)
theorem i2 (b : Fin 32) (s o : Fin 512) : idx_main_v1 (idx_main_v2 (ix3 b s o)) = ix1 o :=
  funext fun a => Fin.ext (by match a with | ⟨0, _⟩ => rfl)
theorem i15 (b : Fin 32) (s : Fin 512) (h : Fin 1024) : idx_main_v14 (idx_main_v15 (ix3 b s h)) = ix1 h :=
  funext fun a => Fin.ext (by match a with | ⟨0, _⟩ => rfl)
theorem i20 (b : Fin 32) (s o : Fin 512) : idx_main_v19 (idx_main_v20 (ix3 b s o)) = ix1 o :=
  funext fun a => Fin.ext (by match a with | ⟨0, _⟩ => rfl)

/-! ## The joined vector -/

/-- Below position 512 the joined vector is its first piece. -/
theorem cat_lo (A : FVec Ideal S32x512x512 .f32) (B : FVec Ideal S32x512x64 .f32)
    (h : Shape.Concatenates [S32x512x512, S32x512x64] S32x512x576 2) (p : Fin 32) (q c : Fin 512) :
    concatenate S32x512x576 2 [⟨S32x512x512, A⟩, ⟨S32x512x64, B⟩] h (ix3 p q (Spec.lo c)) = A (ix3 p q c) :=
  concatenate_pair_apply_left (t := S32x512x576) (s₁ := S32x512x512) (s₂ := S32x512x64) 2 A B h (ix3 p q (Spec.lo c)) rfl
    (ix3 p q c) (fun ax => by match ax with | ⟨0, _⟩ => rfl | ⟨1, _⟩ => rfl | ⟨2, _⟩ => rfl)

/-- From position 512 on it is its second piece. -/
theorem cat_hi (A : FVec Ideal S32x512x512 .f32) (B : FVec Ideal S32x512x64 .f32)
    (h : Shape.Concatenates [S32x512x512, S32x512x64] S32x512x576 2) (p : Fin 32) (q : Fin 512) (k : Fin 64) :
    concatenate S32x512x576 2 [⟨S32x512x512, A⟩, ⟨S32x512x64, B⟩] h (ix3 p q (Spec.hi k)) = B (ix3 p q k) :=
  concatenate_pair_apply_right (t := S32x512x576) (s₁ := S32x512x512) (s₂ := S32x512x64) 2 A B h (ix3 p q (Spec.hi k)) rfl rfl
    (ix3 p q k)
    (fun ax hax => by
      match ax with
      | ⟨0, _⟩ => rfl
      | ⟨1, _⟩ => rfl
      | ⟨2, _⟩ => exact absurd rfl hax)
    (by show k.val + 512 = 512 + k.val; omega)

/-! ## The stages on one row -/

section
variable (X : FVec Ideal S32x512x1024 .f32) (Wl : FVec Ideal S1024x512 .f32) (bl : FVec Ideal S512 .f32)
  (V : FVec Ideal S1024x64 .f32) (W1 : FVec Ideal S576x1024 .f32) (b1 : FVec Ideal S1024 .f32)
  (W2 : FVec Ideal S1024x512 .f32) (b2 : FVec Ideal S512 .f32) (b : Fin 32) (s : Fin 512)

theorem lin_apply (c : Fin 512) :
    val_main_v3 (F := Ideal) X Wl bl (ix3 b s c)
      = Spec.lin (fun i => X (ix3 b s i)) (fun i c => Wl (ix2 i c)) (fun c => bl (ix1 c)) c := by
  rw [val_main_v3_apply, val_main_v0_apply, val_main_v2_apply, val_main_v1_apply]
  simp only [l0, r0, i2, Ideal.addf_def]
  rfl

theorem fm_apply (k : Fin 64) :
    val_main_v11 (F := Ideal) X V (ix3 b s k)
      = Spec.fm (Ideal.ofBits .f32 0x3F000000#32) (fun i => X (ix3 b s i)) (fun i k => V (ix2 i k))
          (fun i k => V (ix2 i k) * V (ix2 i k)) k := by
  rw [val_main_v11_apply, val_main_v10_apply, val_main_cst_apply, val_main_v9_apply, val_main_v8_apply, val_main_v4_apply,
    val_main_v7_apply]
  simp only [l4, r4, l7, r7, val_main_v5_apply, val_main_v6_apply, Ideal.mulf_def, Ideal.subf_def, Ideal.ofBits_def]
  rfl

theorem hid_apply (h : Fin 1024) :
    val_main_v17 (F := Ideal) X Wl bl V W1 b1 (ix3 b s h)
      = Spec.hid (Ideal.ofBits .f32 0x00000000#32)
          (Spec.lin (fun i => X (ix3 b s i)) (fun i c => Wl (ix2 i c)) (fun c => bl (ix1 c)))
          (Spec.fm (Ideal.ofBits .f32 0x3F000000#32) (fun i => X (ix3 b s i)) (fun i k => V (ix2 i k))
            (fun i k => V (ix2 i k) * V (ix2 i k)))
          (fun c h => W1 (ix2 (Spec.lo c) h)) (fun k h => W1 (ix2 (Spec.hi k) h)) (fun h => b1 (ix1 h)) h := by
  rw [val_main_v17_apply, val_main_v16_apply, val_main_v13_apply, val_main_v15_apply, val_main_v14_apply,
    val_main_call0_v0_apply, val_main_call0_cst_apply]
  simp only [l13, r13, i15, Ideal.addf_def, Ideal.maximumf_def, Ideal.ofBits_def]
  rw [Spec.sum_split]
  unfold val_main_v12
  simp only [cat_lo, cat_hi, lin_apply, fm_apply]
  rfl

/-- Entry (b, s, o) of the reference's result is the network on row (b, s) of the input. -/
theorem ref_apply (o : Fin 512) :
    val_main_v21 (F := Ideal) X Wl bl V W1 b1 W2 b2 (ix3 b s o)
      = Spec.mlpRow (Ideal.ofBits .f32 0x3F000000#32) (Ideal.ofBits .f32 0x00000000#32)
          (fun i => X (ix3 b s i)) (fun i c => Wl (ix2 i c)) (fun c => bl (ix1 c))
          (fun i k => V (ix2 i k)) (fun i k => V (ix2 i k) * V (ix2 i k))
          (fun c h => W1 (ix2 (Spec.lo c) h)) (fun k h => W1 (ix2 (Spec.hi k) h)) (fun h => b1 (ix1 h))
          (fun h q => W2 (ix2 h q)) (fun q => b2 (ix1 q)) o := by
  rw [val_main_v21_apply, val_main_v18_apply, val_main_v20_apply, val_main_v19_apply]
  simp only [l18, r18, i20, hid_apply, Ideal.addf_def]
  rfl

end

end Cert.ReferenceIdeal.RefRow

end
-- ==== Proof.RefOut.lean ====
/-
  The reference's whole result is `Spec.net` of its arguments: entry by entry (Proof/RefRow.lean).
-/
import proofs.«151016_j88888643158051_1_alg».proof.Proof.Gen.ReferenceIdeal.Run
import proofs.«151016_j88888643158051_1_alg».proof.Proof.Gen.ReferenceIdeal.Read
import proofs.«151016_j88888643158051_1_alg».proof.Proof.RefRow

noncomputable section

namespace Cert.ReferenceIdeal.RefRow

open Idealize.ShloMosaic Idealize.ShloMosaic.ValueIdx Cert.ReferenceIdeal Cert.ReferenceIdeal.Read

/-- The reference's last stage, as a function of the eight arguments, is the network. -/
theorem ref_eq_net (X : FVec Ideal S32x512x1024 .f32) (Wl : FVec Ideal S1024x512 .f32) (bl : FVec Ideal S512 .f32)
    (V : FVec Ideal S1024x64 .f32) (W1 : FVec Ideal S576x1024 .f32) (b1 : FVec Ideal S1024 .f32)
    (W2 : FVec Ideal S1024x512 .f32) (b2 : FVec Ideal S512 .f32) :
    val_main_v21 (F := Ideal) X Wl bl V W1 b1 W2 b2
      = Spec.net (Ideal.ofBits .f32 0x3F000000#32) (Ideal.ofBits .f32 0x00000000#32) X Wl bl V W1 b1 W2 b2 := by
  funext j
  obtain ⟨b, s, o, rfl⟩ : ∃ (b : Fin 32) (s o : Fin 512), j = ix3 b s o := ⟨j 0, j 1, j 2, eq_ix3 j⟩
  exact ref_apply X Wl bl V W1 b1 W2 b2 b s o

end Cert.ReferenceIdeal.RefRow

end
-- ==== Proof.lean ====
/-
  The kernel computes, for every row x of the input (32 · 512 rows of 1024 entries),
    lin  = x · W_lin + b_lin,     fm = ½ · ((x · V)² − (x ∘ x) · (V ∘ V)),
    out  = max (lin · W1[0:512] + fm · W1[512:576] + b1, 0) · W2 + b2,
  on the input flattened to 16384 rows, 512 rows to a grid point; the reference computes the same on the
  [32, 512, ·] arrays with the linear and second-order parts joined into one 576-vector before the first layer.
  Over the extended reals the two agree entry by entry: every product is a plain sum over the shared coordinate,
  and the sum over the joined 576 positions is the sum over the first 512 plus the sum over the last 64
  (addition is commutative and associative; no finiteness of the inputs is used). `Spec.net` (Proof/Spec.lean) is
  the common function: the kernel program ends at it (Proof/KernelOut.lean) and the reference's result is it
  (Proof/RefOut.lean). The idealization rewrote nothing, so `preserves` is trivial; the kernel frames are the
  generated ones and the reference's frame is its run with the result dropped.
-/
import proofs.«151016_j88888643158051_1_alg».proof.Defs
import proofs.«151016_j88888643158051_1_alg».proof.Proof.Gen.Kernel
import proofs.«151016_j88888643158051_1_alg».proof.Proof.Gen.Kernel.Skeleton
import proofs.«151016_j88888643158051_1_alg».proof.Proof.Gen.Kernel.Launch
import proofs.«151016_j88888643158051_1_alg».proof.Proof.Gen.Kernel.Points
import proofs.«151016_j88888643158051_1_alg».proof.Proof.Gen.Kernel.Frame
import proofs.«151016_j88888643158051_1_alg».proof.Proof.Gen.KernelIdeal
import proofs.«151016_j88888643158051_1_alg».proof.Proof.Gen.KernelIdeal.Skeleton
import proofs.«151016_j88888643158051_1_alg».proof.Proof.Gen.KernelIdeal.Launch
import proofs.«151016_j88888643158051_1_alg».proof.Proof.Gen.KernelIdeal.Points
import proofs.«151016_j88888643158051_1_alg».proof.Proof.Gen.KernelIdeal.Frame
import proofs.«151016_j88888643158051_1_alg».proof.Proof.Gen.ReferenceIdeal
import proofs.«151016_j88888643158051_1_alg».proof.Proof.Gen.ReferenceIdeal.Run
import proofs.«151016_j88888643158051_1_alg».proof.Proof.Gen.ReferenceIdeal.Read
import proofs.«151016_j88888643158051_1_alg».proof.Proof.Gen.Pre_finite_inputs
import proofs.«151016_j88888643158051_1_alg».proof.Proof.KernelOut
import proofs.«151016_j88888643158051_1_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at `Spec.net` of arguments that agree. -/
theorem algebraic : Cert.algebraic_KernelIdeal_ReferenceIdeal := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefRow.ref_eq_net,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
